-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S50000x1 .f32) (main_arg2 : FVec F S800000 .f32) (main_arg3 : IVec S800000 32) (main_arg4 : IVec S800000 32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg1
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S6400x1 : Shape := ⟨2, ![6400, 1]⟩
abbrev S6400x128 : Shape := ⟨2, ![6400, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 25
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S800000x128, .f32⟩
  | .hbm, ⟨18, _⟩ => ⟨S_, .f32⟩
  | .hbm, ⟨19, _⟩ => ⟨S50000x128, .f32⟩
  | .hbm, ⟨20, _⟩ => ⟨S800000x1, .i32⟩
  | .hbm, ⟨21, _⟩ => ⟨S50000x128, .f32⟩
  | .hbm, ⟨22, _⟩ => ⟨S128x128, .f32⟩
  | .hbm, ⟨23, _⟩ => ⟨S1x128, .f32⟩
  | .hbm, ⟨24, _⟩ => ⟨S50000x128, .f32⟩
  | .local _ .vmem, ⟨0, _⟩ => ⟨S6400x1, .f32⟩
  | .local _ .vmem, ⟨1, _⟩ => ⟨S6400x1, .f32⟩
  | .local _ .vmem, ⟨2, _⟩ => ⟨S6400x128, .f32⟩
  | .local _ .vmem, ⟨3, _⟩ => ⟨S6400x128, .f32⟩
  | .local _ .vmem, ⟨4, _⟩ => ⟨S6400x128, .f32⟩
  | .local _ .vmem, ⟨5, _⟩ => ⟨S6400x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  shapeCasts_S800000_S800000x1 : S800000.ShapeCasts S800000x1
  inb_S6400x1_S6400x1_0_0 : ∀ a, (![0, 0] : Fin 2 → Nat) a + S6400x1.size a ≤ S6400x1.size a
  h_S6400x1 : 0 < S6400x1.numel
  shapeCasts_S6400x1_S6400x1 : S6400x1.ShapeCasts S6400x1
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  broadcasts_S6400x1_S6400x128 : S6400x1.Broadcasts S6400x128
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x1.size a ≤ S800000x1.size a
  hwx0_0 : ∀ i : grid0.Coords, EltTy.bits .f32 = 32 ∨ (Rect.block (s := S800000x1) S6400x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x128.size a ≤ S800000x128.size a
  hwx0_2 : ∀ i : grid0.Coords, EltTy.bits .f32 = 32 ∨ (Rect.block (s := S800000x128) S6400x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v7) S6400x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S6400x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x1 : Shape := ⟨2, ![50000, 1]⟩
abbrev S800000 : Shape := ⟨1, ![800000]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x1, .f32⟩
  | .hbm, ⟨2, _⟩ => ⟨S800000, .f32⟩
  | .hbm, ⟨3, _⟩ => ⟨S800000, .i32⟩
  | .hbm, ⟨4, _⟩ => ⟨S800000, .i32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S800000, .f32⟩
  | .hbm, ⟨9, _⟩ => ⟨S800000, .f32⟩
  | .hbm, ⟨10, _⟩ => ⟨S800000x1, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S50000x1, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S128x128, .f32⟩
  | .hbm, ⟨33, _⟩ => ⟨S50000x128, .f32⟩
  | .hbm, ⟨34, _⟩ => ⟨S1x128, .f32⟩
  | .hbm, ⟨35, _⟩ => ⟨S50000x128, .f32⟩
  | .hbm, ⟨36, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefRead.lean ====
import proofs.«123792_j22101901705838_1_alg».proof.Proof.Gen.ReferenceIdeal.Run
import proofs.«123792_j22101901705838_1_alg».proof.Proof.Gen.ReferenceIdeal.Read
-- ==== Proof.Spec.lean ====
/-
  One graph-convolution layer as two whole-array functions over the extended reals.

  Edge messages: message `e` is the gathered source row scaled by the edge weight plus one,
  `msgs w g (e, j) = (w (e, 0) + 1) * g (e, j)`, with `w` the weights laid out as a column.

  The layer: with `a` the messages summed into their destination rows, node `n` has the hidden row
  `h (n, k) = f (n, k) * (s (n, 0) + 1) + a (n, k)` (its own feature scaled by its self weight plus one, plus the
  aggregate), and output `j` is the inner product of that row with column `j` of the transposed weight matrix,
  plus the bias: `layer f s a wt b (n, j) = (∑ k, h (n, k) * wt (k, j)) + b (0, j)`.

  The literal one is kept as its binary word: both programs spell the same word, so it is never evaluated.
-/
import Idealize.ShloMosaic.PureOps.Ideal
import Idealize.ShloMosaic.Lib.ValueIdx

noncomputable section

namespace Cert.Spec

open Idealize.ShloMosaic Idealize.ShloMosaic.ValueIdx

/-- The float literal `1.0`, as its word. -/
def one : EReal := Ideal.ofBits .f32 0x3F800000#32

/-- Message `e`, lane `j`: the gathered source feature times (edge weight + 1). -/
def msgs (w : (⟨2, ![800000, 1]⟩ : Shape).Idx → EReal) (g : (⟨2, ![800000, 128]⟩ : Shape).Idx → EReal) :
    (⟨2, ![800000, 128]⟩ : Shape).Idx → EReal :=
  fun i => (w (ix2 (i 0) (0 : Fin 1)) + one) * g i

/-- Node `n`, output `j`: the hidden row `f * (s + 1) + a` against column `j` of `wt`, plus the bias. -/
def layer (f : (⟨2, ![50000, 128]⟩ : Shape).Idx → EReal) (s : (⟨2, ![50000, 1]⟩ : Shape).Idx → EReal)
    (a : (⟨2, ![50000, 128]⟩ : Shape).Idx → EReal) (wt : (⟨2, ![128, 128]⟩ : Shape).Idx → EReal)
    (b : (⟨2, ![1, 128]⟩ : Shape).Idx → EReal) : (⟨2, ![50000, 128]⟩ : Shape).Idx → EReal :=
  fun i => (∑ k : Fin 128, (f (ix2 (i 0) k) * (s (ix2 (i 0) (0 : Fin 1)) + one) + a (ix2 (i 0) k)) * wt (ix2 k (i 1)))
    + b (ix2 (0 : Fin 1) (i 1))

end Cert.Spec

end
-- ==== Proof.Region0.lean ====
import proofs.«123792_j22101901705838_1_alg».proof.Proof.Gen.KernelIdeal.Frame
import proofs.«123792_j22101901705838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! The output array of the first region, as one function of the arrays the region finds on entry.

  The region runs over 125 points. At point `t` the body reads block `t` of the weight column (rows `6400 t` to
  `6400 t + 6399`) and block `t` of the gathered rows, and writes `(weight + 1) * gathered`, row by row, into
  block `t` of the output, which is written back at every point. The 125 blocks tile the 800000 rows, so the
  array ends holding the edge messages everywhere. -/

/-- The zero offsets of a whole-buffer access, however the zeros are spelt. -/
theorem hz : (![0, 0] : Fin 2 → Nat) = fun _ => 0 := funext fun a => by fin_cases a <;> rfl

/-- A column `[a, 1]` broadcast to `[a, b]` reads, at `(p, q)`, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's payload at row `p`, lane `q` of a block: the weight block's entry of row `p` plus one, times the
    gathered block's entry at `(p, q)`. The literal one stays the word both sides spell. -/
theorem pay_apply (x0 : Vec Ideal S6400x1 .f32) (x1 : Vec Ideal S6400x128 .f32) (p : Fin 6400) (q : Fin 128) :
    k0_pay1 (F := Ideal) x0 x1 (ix2 p q) = (x0 (ix2 p (0 : Fin 1)) + Cert.Spec.one) * x1 (ix2 p q) := by
  unfold k0_pay1
  rw [mulf_apply, shapeCast_self, shapeCast_self, broadcastTo_col_apply, addf_apply, broadcast_apply]
  rfl

/-- The index maps, decided over the 125 grid points: the weight window and the gathered window move with the
    output window on the row axis, every window's block index on the lane axis is 0, and point `t`'s output
    block is block `t`. -/
theorem idx_facts : ∀ t : Fin cfg0.N,
    win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- The message function at the array index of `(p, q)` in the output's block `t`, from the entries of the weight
    window's and the gathered window's blocks `t`: the weight block's row `p` and the gathered block's `(p, q)` sit
    in their arrays where the output's rectangle says. -/
theorem msgs_at_blk (w : S800000x1.Idx → EReal) (g : S800000x128.Idx → EReal) (t : Fin cfg0.N)
    (p : Fin 6400) (q : Fin 128) :
    (w (((cfg0.win 0).blk t).view.emb (ix2 p (0 : Fin 1))) + Cert.Spec.one)
        * g (((cfg0.win 1).blk t).view.emb (ix2 p q))
      = Cert.Spec.msgs w g (((cfg0.win 2).blk t).view.emb (ix2 p q)) := by
  obtain ⟨e0, e1, e2, e3, e4, e5⟩ := idx_facts t
  show _ = (w (ix2 ((((cfg0.win 2).blk t).view.emb (ix2 p q)) 0) (0 : Fin 1)) + Cert.Spec.one)
        * g (((cfg0.win 2).blk t).view.emb (ix2 p q))
  have h0 : ((cfg0.win 0).blk t).view.emb (ix2 p (0 : Fin 1))
      = ix2 ((((cfg0.win 2).blk t).view.emb (ix2 p q)) 0) (0 : Fin 1) := by
    funext a; apply Fin.ext
    match a with
    | ⟨0, _⟩ => show win0_0.index t (0 : Fin 2) * 6400 + 1 * p.val = win0_2.index t (0 : Fin 2) * 6400 + 1 * p.val; omega
    | ⟨1, _⟩ => show win0_0.index t (1 : Fin 2) * 1 + 1 * 0 = 0; omega
  have h1 : ((cfg0.win 1).blk t).view.emb (ix2 p q) = ((cfg0.win 2).blk t).view.emb (ix2 p q) := by
    funext a; apply Fin.ext
    match a with
    | ⟨0, _⟩ => show win0_1.index t (0 : Fin 2) * 6400 + 1 * p.val = win0_2.index t (0 : Fin 2) * 6400 + 1 * p.val; omega
    | ⟨1, _⟩ => show win0_1.index t (1 : Fin 2) * 128 + 1 * q.val = win0_2.index t (1 : Fin 2) * 128 + 1 * q.val; omega
  rw [h0, h1]
  rfl

/-- What the body leaves at `(p, q)` of the output's buffer at point `t` is the message function of the two
    arrays, as the region finds them, at the array index of `(p, q)` in the output's block `t`. -/
theorem flushed_at (c : Dev nD) (t : Fin cfg0.N) (p : Fin 6400) (q : Fin 128) :
    k0_pay1 (F := Ideal) (iblk0 V c 0 t) (iblk0 V c 1 t) (ix2 p q)
      = Cert.Spec.msgs (V c main_v7) (V c main_v6) (((cfg0.win 2).blk t).view.emb (ix2 p q)) := by
  rw [pay_apply]
  exact msgs_at_blk (V c main_v7) (V c main_v6) t p q

/-- What point `t` writes back is block `t` of the message function of the two arrays as the region finds them. -/
theorem flushed_eq (c : Dev nD) (t : Fin cfg0.N) :
    (dat0 (F := Ideal) V c).flushed 2 t
      = ((cfg0.win 2).blk t).view.read (Elt Ideal) (Cert.Spec.msgs (V c main_v7) (V c main_v6)) := by
  show (cfg0.win 2).cut (grid0.coords t) ((dat0 (F := Ideal) V c).after 2 t) = _
  rw [after0_2]
  unfold out0_2
  rw [View.canon_unit_zero hz]
  simp only [View.ld_unit_zero (S := S6400x1) hz, View.ld_unit_zero (S := S6400x128) hz]
  funext j
  obtain ⟨p, q, rfl⟩ : ∃ (p : Fin 6400) (q : Fin 128), j = ix2 p q := ⟨j 0, j 1, eq_ix2 j⟩
  exact flushed_at V c t p q

/-- An index of the output array is in point `t`'s block iff each coordinate is in the block's range on its axis. -/
theorem mem_blk (t : Fin cfg0.N) (i : S800000x128.Idx) :
    i ∈ ((cfg0.win 2).blk t).view.set ↔ ∀ a : Fin 2, win0_2.index t a * S6400x128.size a ≤ (i a).val ∧ (i a).val < win0_2.index t a * S6400x128.size a + S6400x128.size a := by
  show i ∈ ((View.whole main_v8).slice (win0_2.rect t)).set ↔ _
  rw [View.set_slice_whole, Rect.mem_set_unit]
  exact Iff.rfl

/-- Every index of the output array is in some point's block: row `r` is in block `r / 6400`, of the 125. -/
theorem cover (i : S800000x128.Idx) :
    ∃ t : Fin cfg0.N, (cfg0.win 2).flush t = true ∧ i ∈ ((cfg0.win 2).blk t).view.set := by
  have hi0 : (i 0).val < 800000 := (i 0).isLt
  have hi1 : (i 1).val < 128 := (i 1).isLt
  have ht : (i 0).val / 6400 < cfg0.N := by show _ < 125; omega
  obtain ⟨-, -, -, -, e4, e5⟩ := idx_facts ⟨(i 0).val / 6400, ht⟩
  have e5' : win0_2.index ⟨(i 0).val / 6400, ht⟩ (0 : Fin 2) = (i 0).val / 6400 := e5
  refine ⟨⟨(i 0).val / 6400, ht⟩, flush0_2 _, ?_⟩
  rw [mem_blk]
  intro a
  match a with
  | ⟨0, _⟩ => show win0_2.index ⟨(i 0).val / 6400, ht⟩ (0 : Fin 2) * 6400 ≤ (i 0).val ∧ (i 0).val < win0_2.index ⟨(i 0).val / 6400, ht⟩ (0 : Fin 2) * 6400 + 6400; omega
  | ⟨1, _⟩ => show win0_2.index ⟨(i 0).val / 6400, ht⟩ (1 : Fin 2) * 128 ≤ (i 1).val ∧ (i 1).val < win0_2.index ⟨(i 0).val / 6400, ht⟩ (1 : Fin 2) * 128 + 128; omega

/-- The output array after the pipeline has run: the edge messages of the weight column and the gathered rows the
    region found on entry. -/
theorem final (c : Dev nD) :
    (dat0 (F := Ideal) V c).arrAt 2 cfg0.N = Cert.Spec.msgs (V c main_v7) (V c main_v6) :=
  (dat0 (F := Ideal) V c).arrAt_eq_of_cover 2 (Cert.Spec.msgs (V c main_v7) (V c main_v6))
    (fun t _ => flushed_eq V c t) cover

end Cert.KernelIdeal.Region0

end
-- ==== Proof.Region1.lean ====
/-
  Region 1, the node layer, as one whole-array function.

  The region runs over ten points; point `t` takes rows `5000·t … 5000·t + 4999` of the features `f`, of the column of
  self weights `s` and of the aggregated messages `a`, together with all of the transposed weight matrix `wt` and of the
  bias row `b`, and leaves in the same rows of the output
  `(∑ k, (f (n, k) * (s (n, 0) + 1) + a (n, k)) * wt (k, j)) + b (0, j)`.
  Three steps: the body's result at one entry of a block, from its five loaded blocks (the two format changes are the
  identity on extended reals, and the product into the zero accumulator is the plain sum over the 128 contracted
  positions); each block read placed in its array (a block's coordinate is block index × block size + the coordinate
  inside the block); and the ten blocks filling the output, every one written back.
-/
import proofs.«123792_j22101901705838_1_alg».proof.Proof.Gen.KernelIdeal.Frame
import proofs.«123792_j22101901705838_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's result at one entry -/

/-- A column `[a, 1]` broadcast to `[a, b]` reads, at `(p, q)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The left operand of the product is read in the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … at the contracted position; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted position … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … in the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at `(p, q)`: row `p` of the left operand against column `q` of the
    right one, summed over the 128 contracted positions. -/
theorem matmul_zero_apply (y0 : FVec Ideal S5000x128 .bf16) (y1 : FVec Ideal S128x128 .bf16) (p : Fin 5000) (q : Fin 128) :
    matmul dot_S5000x128_S128x128_S5000x128_1_0_0_1_n_n none y0 y1 (constant (F := Ideal) S5000x128 .f32 0x00000000#32) (ix2 p q)
      = ∑ k : Fin 128, y0 (ix2 p k) * y1 (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- THE BODY'S RESULT AT `(p, q)`, from its five loaded blocks: the hidden row `x0 * (x1 + 1) + x2` of row `p` against
    column `q` of `x3`, plus the bias' entry `q`. The two format changes are the identity on extended reals. -/
theorem pay_apply (x0 : Vec Ideal S5000x128 .f32) (x1 : Vec Ideal S5000x1 .f32) (x2 : Vec Ideal S5000x128 .f32)
    (x3 : Vec Ideal S128x128 .f32) (x4 : Vec Ideal S1x128 .f32) (p : Fin 5000) (q : Fin 128) :
    k1_pay1 (F := Ideal) x0 x1 x2 x3 x4 (ix2 p q)
      = (∑ k : Fin 128, (x0 (ix2 p k) * (x1 (ix2 p (0 : Fin 1)) + Cert.Spec.one) + x2 (ix2 p k)) * x3 (ix2 k q))
        + x4 (ix2 (0 : Fin 1) q) := by
  unfold k1_pay1
  simp only [shapeCast_self]
  rw [addf_apply, matmul_zero_apply, broadcastTo_1b_ab_apply]
  refine congrArg (· + x4 (ix2 (0 : Fin 1) q)) (Finset.sum_congr rfl fun k _ => ?_)
  rw [truncf_apply, truncf_apply, addf_apply, mulf_apply, broadcastTo_a1_ab_apply, addf_apply, broadcast_apply]
  rfl

/-! ## From the blocks to the array -/

theorem zero_offsets : (![0, 0] : Fin 2 → Nat) = fun _ => 0 := funext fun a => by fin_cases a <;> rfl

/-- The windows' index maps over the grid: the three row-blocked inputs move with the output on the row axis, the
    weight matrix and the bias stay at their one block, no window moves on the column axis, and the output's row-block
    index stays below the number of row blocks. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 9 ∧ win1_5.index t (1 : Fin 2) = 0 :=
  (by decide +kernel : ∀ t : Fin grid1.N, _)

/-- Every one of the ten row blocks is some point's. -/
theorem idx_onto : ∀ r : Fin 10, ∃ t : Fin cfg1.N, win1_5.index t = ![r.val, 0] :=
  (by decide +kernel : ∀ r : Fin 10, ∃ t : Fin grid1.N, win1_5.index t = ![r.val, 0])

/-- Row `p` of the output's block at point `t`, as a row of the array: `5000 · (block index) + p`. -/
def row (t : Fin cfg1.N) (p : Fin 5000) : Fin 50000 :=
  ⟨win1_5.index t (0 : Fin 2) * 5000 + p.val, by
    have h := (idx_facts t).2.2.2.2.2.2.2.2.2.2.1
    have hp := p.isLt
    omega⟩

/-- The output's block at point `t` sits in the array at rows `row t ·`, all 128 columns. -/
theorem emb_out (t : Fin cfg1.N) (p : Fin 5000) (q : Fin 128) :
    ((cfg1.win 5).blk t).view.emb (ix2 p q) = (ix2 (row t p) q : S50000x128.Idx) := by
  obtain ⟨e00, e01, e10, e11, e20, e21, e30, e31, e40, e41, e5b, e51⟩ := idx_facts t
  funext a; apply Fin.ext
  match a with
  | ⟨0, _⟩ => show win1_5.index t (0 : Fin 2) * 5000 + 1 * p.val = win1_5.index t (0 : Fin 2) * 5000 + p.val; omega
  | ⟨1, _⟩ => show win1_5.index t (1 : Fin 2) * 128 + 1 * q.val = q.val; omega

/-- The features' block at point `t` is the same rows of the features. -/
theorem read_feat (c : Dev nD) (t : Fin cfg1.N) (p : Fin 5000) (k : Fin 128) :
    iblk1 (F := Ideal) V c 0 t (ix2 p k) = V c main_arg0 (ix2 (row t p) k) := by
  obtain ⟨e00, e01, e10, e11, e20, e21, e30, e31, e40, e41, e5b, e51⟩ := idx_facts t
  show V c main_arg0 (((cfg1.win 0).blk t).view.emb (ix2 p k)) = _
  refine congrArg (V c main_arg0) (funext fun a => Fin.ext ?_)
  match a with
  | ⟨0, _⟩ => show win1_0.index t (0 : Fin 2) * 5000 + 1 * p.val = win1_5.index t (0 : Fin 2) * 5000 + p.val; omega
  | ⟨1, _⟩ => show win1_0.index t (1 : Fin 2) * 128 + 1 * k.val = k.val; omega

/-- The self weights' block at point `t` is the same rows of the column. -/
theorem read_self (c : Dev nD) (t : Fin cfg1.N) (p : Fin 5000) :
    iblk1 (F := Ideal) V c 1 t (ix2 p (0 : Fin 1)) = V c main_arg1 (ix2 (row t p) (0 : Fin 1)) := by
  obtain ⟨e00, e01, e10, e11, e20, e21, e30, e31, e40, e41, e5b, e51⟩ := idx_facts t
  show V c main_arg1 (((cfg1.win 1).blk t).view.emb (ix2 p (0 : Fin 1))) = _
  refine congrArg (V c main_arg1) (funext fun a => Fin.ext ?_)
  match a with
  | ⟨0, _⟩ => show win1_1.index t (0 : Fin 2) * 5000 + 1 * p.val = win1_5.index t (0 : Fin 2) * 5000 + p.val; omega
  | ⟨1, _⟩ => show win1_1.index t (1 : Fin 2) * 1 + 1 * 0 = 0; omega

/-- The aggregate's block at point `t` is the same rows of the aggregate. -/
theorem read_agg (c : Dev nD) (t : Fin cfg1.N) (p : Fin 5000) (k : Fin 128) :
    iblk1 (F := Ideal) V c 2 t (ix2 p k) = V c main_v11 (ix2 (row t p) k) := by
  obtain ⟨e00, e01, e10, e11, e20, e21, e30, e31, e40, e41, e5b, e51⟩ := idx_facts t
  show V c main_v11 (((cfg1.win 2).blk t).view.emb (ix2 p k)) = _
  refine congrArg (V c main_v11) (funext fun a => Fin.ext ?_)
  match a with
  | ⟨0, _⟩ => show win1_2.index t (0 : Fin 2) * 5000 + 1 * p.val = win1_5.index t (0 : Fin 2) * 5000 + p.val; omega
  | ⟨1, _⟩ => show win1_2.index t (1 : Fin 2) * 128 + 1 * k.val = k.val; omega

/-- The weight matrix is read whole at every point. -/
theorem read_wt (c : Dev nD) (t : Fin cfg1.N) (k : Fin 128) (q : Fin 128) :
    iblk1 (F := Ideal) V c 3 t (ix2 k q) = V c main_v12 (ix2 k q) := by
  obtain ⟨e00, e01, e10, e11, e20, e21, e30, e31, e40, e41, e5b, e51⟩ := idx_facts t
  show V c main_v12 (((cfg1.win 3).blk t).view.emb (ix2 k q)) = _
  refine congrArg (V c main_v12) (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- So is the bias. -/
theorem read_bias (c : Dev nD) (t : Fin cfg1.N) (q : Fin 128) :
    iblk1 (F := Ideal) V c 4 t (ix2 (0 : Fin 1) q) = V c main_v13 (ix2 (0 : Fin 1) q) := by
  obtain ⟨e00, e01, e10, e11, e20, e21, e30, e31, e40, e41, e5b, e51⟩ := idx_facts t
  show V c main_v13 (((cfg1.win 4).blk t).view.emb (ix2 (0 : Fin 1) q)) = _
  refine congrArg (V c main_v13) (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- WHAT POINT `t` WRITES BACK is block `t` of the layer of the arrays the region finds: at row `p`, column `q` of the
    block, the body's result reads rows `row t p` of the features, the self weights and the aggregate, all of the weight
    matrix' column `q`, and the bias' entry `q`. -/
theorem flushed_eq (c : Dev nD) (t : Fin cfg1.N) :
    (dat1 (F := Ideal) V c).flushed 5 t = ((cfg1.win 5).blk t).view.read (Elt Ideal)
      (Cert.Spec.layer (V c main_arg0) (V c main_arg1) (V c main_v11) (V c main_v12) (V c main_v13)) := by
  show (cfg1.win 5).cut (grid1.coords t) ((dat1 (F := Ideal) V c).after 5 t) = _
  rw [after1_5]
  unfold out1_5
  rw [View.canon_unit_zero zero_offsets]
  simp only [View.ld_unit_zero (S := S5000x128) zero_offsets, View.ld_unit_zero (S := S5000x1) zero_offsets,
    View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = Cert.Spec.layer (V c main_arg0) (V c main_arg1) (V c main_v11) (V c main_v12) (V c main_v13)
        (((cfg1.win 5).blk t).view.emb (ix2 p q))
  rw [pay_apply, emb_out, read_self, read_bias]
  simp only [read_feat, read_agg, read_wt]
  rfl

/-- An entry of the array is in point `t`'s block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v14).slice (win1_5.rect t)).set ↔ _
  rw [View.set_slice_whole, Rect.mem_set_unit]
  exact Iff.rfl

/-- The ten blocks fill the array: row `r` lies in the block of the point whose block index is `r / 5000`, and every
    point writes its block back. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE OUTPUT ARRAY after the region: the layer of the five arrays the region finds on entry. -/
theorem final (c : Dev nD) :
    (dat1 (F := Ideal) V c).arrAt 5 cfg1.N
      = Cert.Spec.layer (V c main_arg0) (V c main_arg1) (V c main_v11) (V c main_v12) (V c main_v13) :=
  (dat1 (F := Ideal) V c).arrAt_eq_of_cover 5 _ (fun t _ => flushed_eq V c t) cover

end Cert.KernelIdeal.Region1

end
-- ==== Proof.Host.lean ====
/-
  What the program's result buffer holds after @main, as one function of the seven argument arrays.

  @main is: a stretch of host operations (the source indices wrapped and laid out as a column, the source rows
  gathered, the edge weights laid out as a column), the first region (the edge messages), a second stretch (the
  messages summed into their destination rows from a zero array, the weight matrix transposed, the bias laid out
  as a row), and the second region (the node layer). Each region's output array is one whole-array function of the
  arrays the region found on entry; here every such entry array is read back, through the host operations that wrote
  it, to the arguments. The gather and the scatter-add stay closed: they are the same functions in the reference.
-/
import proofs.«123792_j22101901705838_1_alg».proof.Proof.Region0
import proofs.«123792_j22101901705838_1_alg».proof.Proof.Region1
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

/-! ## The host operations as functions of the arguments -/

/-- The source indices, a negative one wrapped by the node count, as a column. -/
def srcCol (x3 : (⟨S800000, .i32⟩ : BufTy).Contents (Elt Ideal)) : (⟨S800000x1, .i32⟩ : BufTy).Contents (Elt Ideal) :=
  broadcastInDim S800000x1 ![0] bcast_S800000_S800000x1_0
    (select (cmpi .slt x3 (broadcastInDim S800000 ![] bcast_S_S800000 (constantI S_ 32 0#32)))
      (addi x3 (broadcastInDim S800000 ![] bcast_S_S800000 (constantI S_ 32 50000#32))) x3)

/-- Row `e`: the feature row of edge `e`'s source node. -/
def gathered (x0 : (⟨S50000x128, .f32⟩ : BufTy).Contents (Elt Ideal)) (x3 : (⟨S800000, .i32⟩ : BufTy).Contents (Elt Ideal)) :
    (⟨S800000x128, .f32⟩ : BufTy).Contents (Elt Ideal) :=
  Host.gather gather_S50000x128_S800000x1_S800000x128_1_0_n_n_0_1_1128 x0 (srcCol x3)

/-- The edge weights as a column. -/
def weightCol (x2 : (⟨S800000, .f32⟩ : BufTy).Contents (Elt Ideal)) : (⟨S800000x1, .f32⟩ : BufTy).Contents (Elt Ideal) :=
  shapeCast S800000x1 x2 shapeCasts_S800000_S800000x1

/-- Row `n`: the sum of the update rows whose destination is node `n`, from zero. -/
def aggregate (x4 : (⟨S800000, .i32⟩ : BufTy).Contents (Elt Ideal)) (u : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 x4) u

/-- The weight matrix transposed. -/
def weightT (x5 : (⟨S128x128, .f32⟩ : BufTy).Contents (Elt Ideal)) : (⟨S128x128, .f32⟩ : BufTy).Contents (Elt Ideal) :=
  transpose S128x128 [1, 0] x5 transposes_S128x128_S128x128_1_0

/-- The bias as a row. -/
def biasRow (x6 : (⟨S128, .f32⟩ : BufTy).Contents (Elt Ideal)) : (⟨S1x128, .f32⟩ : BufTy).Contents (Elt Ideal) :=
  shapeCast S1x128 x6 shapeCasts_S128_S1x128

/-- The program's result: the node layer over the features, the self weights, the aggregated messages, the
    transposed weight matrix and the bias row. -/
def value (x0 : (⟨S50000x128, .f32⟩ : BufTy).Contents (Elt Ideal)) (x1 : (⟨S50000x1, .f32⟩ : BufTy).Contents (Elt Ideal))
    (x2 : (⟨S800000, .f32⟩ : BufTy).Contents (Elt Ideal)) (x3 x4 : (⟨S800000, .i32⟩ : BufTy).Contents (Elt Ideal))
    (x5 : (⟨S128x128, .f32⟩ : BufTy).Contents (Elt Ideal)) (x6 : (⟨S128, .f32⟩ : BufTy).Contents (Elt Ideal)) :
    (⟨S50000x128, .f32⟩ : BufTy).Contents (Elt Ideal) :=
  Cert.Spec.layer x0 x1 (aggregate x4 (Cert.Spec.msgs (weightCol x2) (gathered x0 x3))) (weightT x5) (biasRow x6)

theorem layer_congr {f f' s s' a a' wt wt' b b'} (h0 : f = f') (h1 : s = s') (h2 : a = a') (h3 : wt = wt') (h4 : b = b') :
    Cert.Spec.layer f s a wt b = Cert.Spec.layer f' s' a' wt' b' := by
  subst h0 h1 h2 h3 h4; rfl

variable (m : (ℓ : Loc nD τ sig) → Buf (Elt Ideal) ℓ) (ρ : Dev nD → PrngReg)

/-! ## The first stretch: what the first region finds -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results <;> rfl

/-- The weight column the first region reads. -/
theorem V1_v7 (c : Dev nD) : V1 m ρ c main_v7 = weightCol (m ((c : Thread nD τ).loc main_arg2)) := by
  show StableHlo.after hostOps0 (W0 m ρ c) (Proc.devRef .tc main_v7) = _
  after_results <;> rfl
/-- The gathered rows the first region reads. -/
theorem V1_v6 (c : Dev nD) :
    V1 m ρ c main_v6 = gathered (m ((c : Thread nD τ).loc main_arg0)) (m ((c : Thread nD τ).loc main_arg3)) := by
  show StableHlo.after hostOps0 (W0 m ρ c) (Proc.devRef .tc main_v6) = _
  after_results <;> rfl

/-! ## After the first region -/

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)

/-- The messages array after the first region: the messages of the weight column and the gathered rows. -/
theorem W2_v8 (c : Dev nD) :
    W2 m ρ c (Proc.devRef .tc main_v8)
      = Cert.Spec.msgs (weightCol (m ((c : Thread nD τ).loc main_arg2)))
          (gathered (m ((c : Thread nD τ).loc main_arg0)) (m ((c : Thread nD τ).loc main_arg3))) :=
  (W2_arr m ρ c 2).trans ((Cert.KernelIdeal.Region0.final (V1 m ρ) c).trans
    (congrArg₂ Cert.Spec.msgs (V1_v7 m ρ c) (V1_v6 m ρ c)))

/-! ## The second stretch: what the second region finds -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c
theorem V3_arg1 (c : Dev nD) : V3 m ρ c main_arg1 = m ((c : Thread nD τ).loc main_arg1) := by
  show StableHlo.after hostOps1 (W2 m ρ c) (Proc.devRef .tc main_arg1) = _
  after_results
  exact W2_arg1 m ρ c
/-- The aggregate the second region reads. -/
theorem V3_v11 (c : Dev nD) :
    V3 m ρ c main_v11
      = aggregate (m ((c : Thread nD τ).loc main_arg4))
          (Cert.Spec.msgs (weightCol (m ((c : Thread nD τ).loc main_arg2)))
            (gathered (m ((c : Thread nD τ).loc main_arg0)) (m ((c : Thread nD τ).loc main_arg3)))) := by
  show StableHlo.after hostOps1 (W2 m ρ c) (Proc.devRef .tc main_v11) = _
  after_results
  rw [W2_arg4 m ρ c, W2_v8 m ρ c]
  rfl
/-- The transposed weight matrix the second region reads. -/
theorem V3_v12 (c : Dev nD) : V3 m ρ c main_v12 = weightT (m ((c : Thread nD τ).loc main_arg5)) := by
  show StableHlo.after hostOps1 (W2 m ρ c) (Proc.devRef .tc main_v12) = _
  after_results
  rw [W2_arg5 m ρ c]
  rfl
/-- The bias row the second region reads. -/
theorem V3_v13 (c : Dev nD) : V3 m ρ c main_v13 = biasRow (m ((c : Thread nD τ).loc main_arg6)) := by
  show StableHlo.after hostOps1 (W2 m ρ c) (Proc.devRef .tc main_v13) = _
  after_results
  rw [W2_arg6 m ρ c]
  rfl

/-! ## The result -/

/-- The result buffer after @main is `value` of the arguments. -/
theorem W4_result (c : Dev nD) :
    W4 m ρ c (Proc.devRef .tc main_v14)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) :=
  (W4_arr m ρ c 5).trans ((Cert.KernelIdeal.Region1.final (V3 m ρ) c).trans
    (layer_congr (V3_arg0 m ρ c) (V3_arg1 m ρ c) (V3_v11 m ρ c) (V3_v12 m ρ c) (V3_v13 m ρ c)))

end Cert.KernelIdeal.Host

end
-- ==== Proof.Bridge.lean ====
/-
  The program's result and the reference's are one function of the arguments.

  The reference computes, stage by stage: the edge weights plus one, as a column broadcast over the lanes, times
  the gathered source rows (the messages); the messages summed into their destination rows from zero; the node
  features times (self weight + 1) plus that aggregate; the product with the transposed weight matrix; plus the
  bias broadcast over the rows. The program computes the messages and the last three steps in its two regions and
  the gather, the scatter-add and the transpose by the same host operations. So: the two gathers are one function
  (the same operation of the same operands); the messages agree entry by entry (a column cast of the weights read
  at (e, 0) is the weight at e); hence the two aggregates are one array; and the layer's entry (n, j) is on both
  sides the same sum over k of the same products, plus the bias at j. No law of the extended reals is used beyond
  reading each side at an index.
-/
import proofs.«123792_j22101901705838_1_alg».proof.Proof.RefRead
import proofs.«123792_j22101901705838_1_alg».proof.Proof.Host
import Idealize.ShloMosaic.Lib.ValueLayout

set_option maxRecDepth 16384

noncomputable section

namespace Cert.Bridge

open Idealize.ShloMosaic Idealize.ShloMosaic.TcCoe Idealize.ShloMosaic.ValueIdx
open Cert.ReferenceIdeal Cert.ReferenceIdeal.Read

/-- A vector cast to a column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (x0 : (⟨S50000x128, .f32⟩ : BufTy).Contents (Elt Ideal)) (x1 : (⟨S50000x1, .f32⟩ : BufTy).Contents (Elt Ideal))
  (x2 : (⟨S800000, .f32⟩ : BufTy).Contents (Elt Ideal)) (x3 x4 : (⟨S800000, .i32⟩ : BufTy).Contents (Elt Ideal))
  (x5 : (⟨S128x128, .f32⟩ : BufTy).Contents (Elt Ideal)) (x6 : (⟨S128, .f32⟩ : BufTy).Contents (Elt Ideal))

/-- The gathered rows: the same gather of the same wrapped index column. -/
theorem gathered_eq : Cert.KernelIdeal.Host.gathered x0 x3 = val_main_v9 (F := Ideal) x0 x3 := rfl

/-- The messages, entry by entry: (weight + 1) times the gathered entry. -/
theorem msgs_eq :
    Cert.Spec.msgs (Cert.KernelIdeal.Host.weightCol x2) (Cert.KernelIdeal.Host.gathered x0 x3)
      = val_main_v11 (F := Ideal) x0 x2 x3 := by
  funext i
  obtain ⟨e, q, rfl⟩ : ∃ (e : Fin 800000) (q : Fin 128), i = ix2 e q := ⟨i 0, i 1, eq_ix2 i⟩
  have hi : idx_main_v2 (idx_main_v10 (ix2 e q)) = ix1 e := funext fun a => by match a with | ⟨0, _⟩ => rfl
  have hc : Cert.KernelIdeal.Host.weightCol x2 (ix2 e (0 : Fin 1)) = x2 (ix1 e) := shapeCast_a_a1_apply x2 _ e 0
  rw [val_main_v11_apply, val_main_v10_apply, val_main_v2_apply, val_main_v1_apply, val_main_v0_apply,
    val_main_cst_apply, hi, ← gathered_eq]
  show (Cert.KernelIdeal.Host.weightCol x2 (ix2 e (0 : Fin 1)) + Cert.Spec.one) * _ = _
  rw [hc]
  rfl

/-- The aggregates: the same scatter-add of equal updates. -/
theorem aggregate_eq :
    Cert.KernelIdeal.Host.aggregate x4
        (Cert.Spec.msgs (Cert.KernelIdeal.Host.weightCol x2) (Cert.KernelIdeal.Host.gathered x0 x3))
      = val_main_v14 (F := Ideal) x0 x2 x3 x4 := by
  rw [msgs_eq]
  rfl

/-- The program's result is the reference's last stage. -/
theorem value_eq :
    Cert.KernelIdeal.Host.value x0 x1 x2 x3 x4 x5 x6 = val_main_v24 (F := Ideal) x0 x1 x2 x3 x4 x5 x6 := by
  unfold Cert.KernelIdeal.Host.value
  rw [aggregate_eq]
  funext i
  obtain ⟨n, j, rfl⟩ : ∃ (n : Fin 50000) (j : Fin 128), i = ix2 n j := ⟨i 0, i 1, eq_ix2 i⟩
  have hl (k : Fin 128) : lidx_main_v21 (ix2 n j) k = ix2 n k :=
    funext fun a => by match a with | ⟨0, _⟩ => rfl | ⟨1, _⟩ => rfl
  have hr (k : Fin 128) : ridx_main_v21 (ix2 n j) k = ix2 k j :=
    funext fun a => by match a with | ⟨0, _⟩ => rfl | ⟨1, _⟩ => rfl
  have h17 (k : Fin 128) : idx_main_v17 (ix2 n k) = ix2 n (0 : Fin 1) :=
    funext fun a => by match a with | ⟨0, _⟩ => rfl | ⟨1, _⟩ => rfl
  have hb : idx_main_v22 (idx_main_v23 (ix2 n j)) = ix1 j := funext fun a => by match a with | ⟨0, _⟩ => rfl
  rw [val_main_v24_apply, val_main_v21_apply, val_main_v23_apply, val_main_v22_apply, hb]
  show (∑ k : Fin 128, (x0 (ix2 n k) * (x1 (ix2 n (0 : Fin 1)) + Cert.Spec.one)
        + val_main_v14 (F := Ideal) x0 x2 x3 x4 (ix2 n k)) * Cert.KernelIdeal.Host.weightT x5 (ix2 k j))
      + Cert.KernelIdeal.Host.biasRow x6 (ix2 (0 : Fin 1) j) = (∑ k : Fin 128, _) + _
  refine congrArg₂ (· + ·) (Finset.sum_congr rfl fun k _ => ?_) ?_
  · rw [hl k, hr k, val_main_v19_apply, val_main_v18_apply, val_main_v17_apply, h17 k, val_main_v16_apply,
      val_main_v15_apply, val_main_cst_2_apply]
    rfl
  · exact shapeCast_a_1a_apply x6 _ 0 j

end Cert.Bridge

end
-- ==== Proof.lean ====
/-
  One graph-convolution layer: a two-region program against its array reference, equal over the extended reals.

  The program gathers each edge's source feature row, forms the edge messages (weight + 1) * row in its first
  region, sums the messages into their destination rows, and in its second region computes, per node, the hidden
  row feature * (self weight + 1) + aggregate, its product with the transposed weight matrix, and adds the bias.
  The reference does the same with array operations. Each region's output array is one whole-array function of the
  arrays it finds on entry (one module per region), the arrays between the regions are read back to the arguments
  through the host operations, and the resulting function of the seven arguments is the reference's last stage,
  entry by entry: the gather and the scatter-add are the same operations of equal operands, and the matrix product
  is the same sum over the hidden axis on both sides. The frames are the programs' own runs; the idealization
  rewrote nothing, so there is nothing to preserve.
-/
import proofs.«123792_j22101901705838_1_alg».proof.Defs
import proofs.«123792_j22101901705838_1_alg».proof.Proof.Gen.Kernel
import proofs.«123792_j22101901705838_1_alg».proof.Proof.Gen.Kernel.Skeleton
import proofs.«123792_j22101901705838_1_alg».proof.Proof.Gen.Kernel.Launch
import proofs.«123792_j22101901705838_1_alg».proof.Proof.Gen.Kernel.Points
import proofs.«123792_j22101901705838_1_alg».proof.Proof.Gen.Kernel.Frame
import proofs.«123792_j22101901705838_1_alg».proof.Proof.Gen.KernelIdeal
import proofs.«123792_j22101901705838_1_alg».proof.Proof.Gen.KernelIdeal.Skeleton
import proofs.«123792_j22101901705838_1_alg».proof.Proof.Gen.KernelIdeal.Launch
import proofs.«123792_j22101901705838_1_alg».proof.Proof.Gen.KernelIdeal.Points
import proofs.«123792_j22101901705838_1_alg».proof.Proof.Gen.KernelIdeal.Frame
import proofs.«123792_j22101901705838_1_alg».proof.Proof.Gen.ReferenceIdeal
import proofs.«123792_j22101901705838_1_alg».proof.Proof.Gen.Pre_finite_inputs
import proofs.«123792_j22101901705838_1_alg».proof.Proof.RefRead
import proofs.«123792_j22101901705838_1_alg».proof.Proof.Launch
import proofs.«123792_j22101901705838_1_alg».proof.Proof.Host
import proofs.«123792_j22101901705838_1_alg».proof.Proof.Bridge
import Idealize.ShloMosaic.Adequacy
import Idealize.ShloMosaic.Init

noncomputable section

namespace Cert.Proof

open Idealize.ShloMosaic Idealize.SL.Sem

/-- The program runs and keeps its arguments, at the word level … -/
theorem frame_kernel : Cert.frame_Kernel := fun m ρ _ => Cert.Kernel.Gen.frame m ρ

/-- … and over the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the layer's function of the
    arguments: the program's by its two regions read back through the host operations, the reference's by its
    stages read at an index. -/
theorem algebraic : Cert.algebraic_KernelIdeal_ReferenceIdeal := by
  intro m ρ m' ρ' _ hagree
  refine ⟨fun c => Cert.KernelIdeal.Host.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Host.W4_result m ρ c), (h c).2⟩)
      (Cert.KernelIdeal.GenRun.run_value (F := Ideal) m ρ)
  · refine (θ_run Cert.ReferenceIdeal.defs _ _).mono (fun _ h c => ⟨(h c).1.trans ?_, (h c).2⟩)
      (Cert.ReferenceIdeal.Value.run (F := Ideal) m' ρ')
    have e := hagree c
    show _ = Cert.KernelIdeal.Host.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
    rw [← e.1, ← e.2.1, ← e.2.2.1, ← e.2.2.2.1, ← e.2.2.2.2.1, ← e.2.2.2.2.2.1, ← e.2.2.2.2.2.2]
    exact (Cert.ReferenceIdeal.Read.val_main_v24_eq _ _ _ _ _ _ _).trans (Cert.Bridge.value_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
